-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32 : Shape := ⟨1, ![32]⟩
abbrev S8x4096x1024 : Shape := ⟨3, ![8, 4096, 1024]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x4096x256 .f32) (main_arg1 : IVec S32 32) (main_arg2 : FVec F S8x4096x1024 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S8x4096x1024 .f32 := Host.absf main_arg2
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_c_2 : IVec S_ 32 := constantI S_ 32 0#32
  let main_v9 : IVec S32 32 := broadcastInDim S32 ![] bcast_S_S32 main_c_2
  let main_v10 : IVec S32 1 := cmpi .sge main_arg1 main_v9
  let main_c_3 : IVec S_ 32 := constantI S_ 32 8#32
  let main_v11 : IVec S32 32 := broadcastInDim S32 ![] bcast_S_S32 main_c_3
  let main_v12 : IVec S32 1 := cmpi .slt main_arg1 main_v11
  let main_v13 : IVec S32 1 := andi main_v10 main_v12
  let main_c_4 : IVec S_ 1 := constantI S_ 1 1#1
  let main_v14 : IVec S_ 1 := (fun x v => Host.reduce IntOp.andi x v reducesTo_S32_S_d0 h_S_) main_v13 main_c_4
  let main_v15 : IVec S_ 1 := andi main_v8 main_v14
  main_v15
-- ==== Kernel.lean ====
abbrev S32x4096x256 : Shape := ⟨3, ![32, 4096, 256]⟩
abbrev S32 : Shape := ⟨1, ![32]⟩
abbrev S8x4096x1024 : Shape := ⟨3, ![8, 4096, 1024]⟩
abbrev S_ : Shape := ⟨0, ![]⟩
abbrev S32x1 : Shape := ⟨2, ![32, 1]⟩
abbrev S32x1024x256 : Shape := ⟨3, ![32, 1024, 256]⟩
abbrev S1x4096x256 : Shape := ⟨3, ![1, 4096, 256]⟩
abbrev S1 : Shape := ⟨1, ![1]⟩
abbrev S1x4096x1024 : Shape := ⟨3, ![1, 4096, 1024]⟩
abbrev S1x1024x256 : Shape := ⟨3, ![1, 1024, 256]⟩
abbrev S4096x256 : Shape := ⟨2, ![4096, 256]⟩
abbrev S4096x1024 : Shape := ⟨2, ![4096, 1024]⟩
abbrev S1024x256 : Shape := ⟨2, ![1024, 256]⟩

abbrev nBuf : Space → Nat
  | .hbm => 22
  | .vmem => 5
  | .smem => 2
  | _ => 0

abbrev bufTy : (tb : Table) → Fin (tcTables nBuf tb) → BufTy
  | .hbm, ⟨0, _⟩ => ⟨S32x4096x256, .f32⟩
  | .hbm, ⟨1, _⟩ => ⟨S32, .i32⟩
  | .hbm, ⟨2, _⟩ => ⟨S8x4096x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S32x1024x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x1024, .f32⟩
  | .local _ .vmem, ⟨3, _⟩ => ⟨S1x1024x256, .f32⟩
  | .local _ .vmem, ⟨4, _⟩ => ⟨S1x1024x256, .f32⟩
  | .local _ .smem, ⟨0, _⟩ => ⟨S32, .i32⟩
  | .local _ .smem, ⟨1, _⟩ => ⟨S32, .i32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1_0 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v9 : Ref sig .tc := ⟨.hbm, 21, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  numel1_S1 : S1.numel = 1
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  gather_S32_S32x1_S32_n_0_n_n_0_1_1_wf : GatherDims.WF S32 S32x1 S32 [] [0] [] [0] [] 1 ![1]
  dot_S4096x1024_S4096x256_S1024x256_0_0_1_1_n_n_wf : DotDims.WF S4096x1024 S4096x256 S1024x256 [0] [0] [1] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 true = 1
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S4096x1024_S4096x256_S1024x256_0_0_1_1_n_n : DotDims S4096x1024 S4096x256 S1024x256 where
  lhsContracting := [0]
  rhsContracting := [0]
  lhsNonContracting := [1]
  rhsNonContracting := [1]
  lhsBatch := []
  rhsBatch := []
  wf := dot_S4096x1024_S4096x256_S1024x256_0_0_1_1_n_n_wf

abbrev spec0_0 : Pipeline.WinSpec sig grid0.rank :=
  Pipeline.WinSpec.ofSpec (Memref.whole main_arg0) S1x4096x256.size reads0_0 false false 2 stage0_0 sem0_0 nbuf0_0 hstage0_0

abbrev spec0_1 : Pipeline.WinSpec sig grid0.rank :=
  Pipeline.WinSpec.ofSpec (Memref.whole main_arg2) S1x4096x1024.size reads0_1 false true 1 stage0_1 sem0_1 nbuf0_1 hstage0_1

abbrev spec0_2 : Pipeline.WinSpec sig grid0.rank :=
  Pipeline.WinSpec.ofSpec (Memref.whole main_v9) S1x1024x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x4096x256.size a ≤ S32x4096x256.size a), EltTy.bits .f32 = 32 ∨ (Rect.block (s := S32x4096x256) S1x4096x256.size (cc0_transform_0 k0_off1_inb numel1_S1 pf i) h).WholeWords (EltTy.packing .f32)) ∧
  (∀ i : grid0.Coords, ∃ h : (∀ a, (cc0_transform_1 k0_off1_inb numel1_S1 pf i a + 1) * S1x4096x1024.size a ≤ S8x4096x1024.size a), EltTy.bits .f32 = 32 ∨ (Rect.block (s := S8x4096x1024) S1x4096x1024.size (cc0_transform_1 k0_off1_inb numel1_S1 pf i) h).WholeWords (EltTy.packing .f32)) ∧
  (∀ i : grid0.Coords, ∃ h : (∀ a, (cc0_transform_2 k0_off1_inb numel1_S1 pf i a + 1) * S1x1024x256.size a ≤ S32x1024x256.size a), EltTy.bits .f32 = 32 ∨ (Rect.block (s := S32x1024x256) S1x1024x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x4096x256 : Shape := ⟨3, ![32, 4096, 256]⟩
abbrev S32 : Shape := ⟨1, ![32]⟩
abbrev S8x4096x1024 : Shape := ⟨3, ![8, 4096, 1024]⟩
abbrev S_ : Shape := ⟨0, ![]⟩
abbrev S32x1 : Shape := ⟨2, ![32, 1]⟩
abbrev S32x4096x1024 : Shape := ⟨3, ![32, 4096, 1024]⟩
abbrev S32x1024x256 : Shape := ⟨3, ![32, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32, .i32⟩
  | .hbm, ⟨2, _⟩ => ⟨S8x4096x1024, .f32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x4096x1024, .f32⟩
  | .hbm, ⟨12, _⟩ => ⟨S32x1024x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  gather_S8x4096x1024_S32x1_S32x4096x1024_12_0_n_n_0_1_140961024_wf : GatherDims.WF S8x4096x1024 S32x1 S32x4096x1024 [1, 2] [0] [] [0] [] 1 ![1, 4096, 1024]
  dot_S32x4096x1024_S32x4096x256_S32x1024x256_1_1_2_2_0_0_wf : DotDims.WF S32x4096x1024 S32x4096x256 S32x1024x256 [1] [1] [2] [2] [0] [0]

variable [Facts₀]

def gather_S8x4096x1024_S32x1_S32x4096x1024_12_0_n_n_0_1_140961024 : GatherDims S8x4096x1024 S32x1 S32x4096x1024 where
  offsetDims := [1, 2]
  collapsedSliceDims := [0]
  operandBatchingDims := []
  startIndicesBatchingDims := []
  startIndexMap := [0]
  indexVectorDim := 1
  sliceSizes := ![1, 4096, 1024]
  wf := gather_S8x4096x1024_S32x1_S32x4096x1024_12_0_n_n_0_1_140961024_wf
def dot_S32x4096x1024_S32x4096x256_S32x1024x256_1_1_2_2_0_0 : DotDims S32x4096x1024 S32x4096x256 S32x1024x256 where
  lhsContracting := [1]
  rhsContracting := [1]
  lhsNonContracting := [2]
  rhsNonContracting := [2]
  lhsBatch := [0]
  rhsBatch := [0]
  wf := dot_S32x4096x1024_S32x4096x256_S32x1024x256_1_1_2_2_0_0_wf

class Facts : Prop extends Facts₀ where

variable [Facts]
-- ==== Proof.Spec.lean ====
/-
  The function both programs compute. Batch row b carries a subject number κ b in 0..7; the output row for b is the
  matrix product of that subject's weight matrix, transposed, with the row's input:
      out[b, d, t] = Σ_c w[κ b, c, d] · x[b, c, t],     c over the 4096 input channels.
  The sum is taken in the extended reals, each summand with the weight on the left, which is the order both programs
  multiply in; no algebraic law beyond the equality of the two index functions is needed to join them.
-/
import Idealize.ShloMosaic.PureOps.Ideal
import Idealize.ShloMosaic.Lib.ValueIdx
import Idealize.ShloMosaic.Lib.SortFacts

noncomputable section

open scoped BigOperators

namespace Cert.SubjectMix

open Idealize.ShloMosaic Idealize.ShloMosaic.ValueIdx

/-- The inputs x : [32, 4096, 256], the weights w : [8, 4096, 1024], the result [32, 1024, 256], the subject numbers [32]. -/
abbrev SX : Shape := ⟨3, ![32, 4096, 256]⟩
abbrev SW : Shape := ⟨3, ![8, 4096, 1024]⟩
abbrev SO : Shape := ⟨3, ![32, 1024, 256]⟩
abbrev SV : Shape := ⟨1, ![32]⟩

/-- Entry b of a length-32 vector. -/
abbrev at32 (b : Fin 32) : SV.Idx := Shape.Idx.ofFin b

/-- out[b, d, t] = Σ_c w[κ b, c, d] · x[b, c, t]. -/
def mix (κ : Fin 32 → Fin 8) (x : SX.Idx → EReal) (w : SW.Idx → EReal) : SO.Idx → EReal :=
  fun i => ∑ c : Fin 4096,
    w (ix3 (κ ⟨(i 0).val, (i 0).isLt⟩) c (⟨(i 1).val, (i 1).isLt⟩ : Fin 1024))
      * x (ix3 (⟨(i 0).val, (i 0).isLt⟩ : Fin 32) c (⟨(i 2).val, (i 2).isLt⟩ : Fin 256))

theorem mix_apply (κ : Fin 32 → Fin 8) (x : SX.Idx → EReal) (w : SW.Idx → EReal) (b : Fin 32) (d : Fin 1024) (t : Fin 256) :
    mix κ x w (ix3 b d t) = ∑ c : Fin 4096, w (ix3 (κ b) c d) * x (ix3 b c t) := rfl

/-- The subject of each row as a number below 8, from a vector of words known to be below 8. -/
def subjectOf (s : SV.Idx → BitVec 32) (hs : ∀ b : Fin 32, (s (at32 b)).toNat < 8) : Fin 32 → Fin 8 :=
  fun b => ⟨(s (at32 b)).toNat, hs b⟩

end Cert.SubjectMix

end
-- ==== Proof.Routing.lean ====
/-
  Routing by subject. Before the matrix products, the 32 batch rows are put in the order of their subject numbers:
  the numbers are clipped into 0..7, the pairs (clipped number, position) are sorted stably, and the clipped numbers
  are read back through the sorted positions. Nothing here depends on WHICH order the sort produces. For any
  comparator and any keys we show:

  * the sorted positions are the words of a self-map place of the 32 positions, and place is a bijection
    (a stable sort rearranges, it neither drops nor repeats);
  * adding 32 to the negative ones among these words changes nothing, since none is negative;
  * reading the keys through the (wrapped) sorted positions gives, at place t, the key at position place t;
  * the clip min(7, max(0, s)) is at most 7 as a natural number, and is s itself wherever s is already below 8.

  Every word here is a 32-bit integer; the order of two words is the order of their signed values.
-/
import proofs.«405532_j22454089023725_3_alg».proof.Proof.Spec
import Idealize.ShloMosaic.Lib.SortFacts
import Idealize.ShloMosaic.Lib.StableHlo.Predicate
import Idealize.ShloMosaic.PureOps

noncomputable section

namespace Cert.SubjectMix.Routing

open Idealize.ShloMosaic Idealize.ShloMosaic.StableHlo.Predicate Cert.SubjectMix

/-- A single word (rank 0), and a column of 32 words. -/
abbrev S0 : Shape := ⟨0, ![]⟩
abbrev SC : Shape := ⟨2, ![32, 1]⟩

/-- The position whose (key, position) pair the stable sort by cmp puts at place t. -/
def place (cmp : BitVec 32 × BitVec 32 → BitVec 32 × BitVec 32 → BitVec 1) (k : SV.Idx → BitVec 32) : Fin 32 → Fin 32 :=
  sortedFrom (fun a b => cmp (k (at32 a), iotaInDim SV 32 0 (at32 a)) (k (at32 b), iotaInDim SV 32 0 (at32 b)) == 1#1)

/-- A stable sort only rearranges: every position is read at exactly one place. -/
theorem place_bijective (cmp : BitVec 32 × BitVec 32 → BitVec 32 × BitVec 32 → BitVec 1) (k : SV.Idx → BitVec 32) :
    Function.Bijective (place cmp k) :=
  ⟨sortedFrom_injective _, sortedFrom_surjective _⟩

/-- A pair sort of two vectors along their one axis moves both by the same self-map of the positions: the second
    result at place t is the second operand at the position the sort brings to t. (Any length.) -/
private theorem sort2_snd_rank1 {n : Nat} {α β : Type} (cmp : α × β → α × β → BitVec 1)
    (x : (⟨1, ![n]⟩ : Shape).Idx → α) (y : (⟨1, ![n]⟩ : Shape).Idx → β) (t : Fin n) :
    (Host.sort2 ⟨1, ![n]⟩ 0 cmp x y).2 (Shape.Idx.ofFin t)
      = y (Shape.Idx.ofFin (sortedFrom (fun a b => cmp (x (Shape.Idx.ofFin a), y (Shape.Idx.ofFin a))
          (x (Shape.Idx.ofFin b), y (Shape.Idx.ofFin b)) == 1#1) t)) := by
  unfold Host.sort2
  simp

/-- The second component of the pair sort, which started as 0, 1, …, 31, holds at place t the word of the position
    that was moved there. -/
theorem argsort_apply (cmp : BitVec 32 × BitVec 32 → BitVec 32 × BitVec 32 → BitVec 1) (k : SV.Idx → BitVec 32) (t : Fin 32) :
    (Host.sort2 SV 0 cmp k (iotaInDim SV 32 0)).2 (at32 t) = BitVec.ofNat 32 (place cmp k t).val := by
  unfold place
  exact (sort2_snd_rank1 cmp k (iotaInDim SV 32 0) t).trans (iota_apply _)

/-- jnp's wrap of a negative index (p < 0 ? p + n : p) leaves a word below 2^31 alone. -/
theorem wrap_apply (h0 : S0.BroadcastsInDim SV (![] : Fin 0 → Fin SV.rank)) (n : BitVec 32) (p : SV.Idx → BitVec 32) (j : SV.Idx) (hp : (p j).toNat < 2 ^ 31) :
    select (cmpi .slt p (broadcastInDim SV ![] h0 (constantI S0 32 0#32))) (addi p (broadcastInDim SV ![] h0 (constantI S0 32 n))) p j = p j := by
  -- the test "p j < 0" fails: as a signed number p j is its own value, which is not below zero
  have hc : ¬ IntOp.cmpi .slt (p j) 0#32 = 1#1 := by
    rw [slt_iff_toNat hp (by decide)]
    exact Nat.not_lt_zero _
  show (if IntOp.cmpi .slt (p j) 0#32 = 1 then _ else p j) = p j
  exact if_neg hc

/-- A one-element gather from a length-32 vector whose start index for place t is the word of a position q reads
    the vector at q: read signed the word is q, and q is already inside 0..31, so the clamp does nothing. -/
private theorem take_at (gd : GatherDims SV SC SV)
    (hcoll : gd.collapsedSliceDims = [0]) (hob : gd.operandBatchingDims = []) (hsim : gd.startIndexMap = [0]) (hivd : gd.indexVectorDim = 1)
    (k : SV.Idx → BitVec 32) (idx : IVec SC 32) (t q : Fin 32) (h : idx (ixP t) = BitVec.ofNat 32 q.val) :
    Host.gather gd k idx (at32 t) = k (at32 q) := by
  refine (gather_take gd hcoll hob hsim hivd k idx t (by decide)).trans
    (congrArg (fun r : Fin 32 => k (Shape.Idx.ofFin r)) (Fin.ext ?_))
  show min (idx (ixP t)).toInt.toNat (32 - 1) = q.val
  have hq := q.isLt
  rw [h, toInt_ofNat_small _ (by omega)]
  omega

/-- Reading the keys through the sorted positions: place t of the result is the key at position place t. The
    positions are first wrapped (none is negative, so nothing changes), stood up as a column, then used as start
    indices of a one-element gather, which reads them as signed numbers and clamps them into 0..31. -/
theorem sorted_keys_apply (h0 : S0.BroadcastsInDim SV (![] : Fin 0 → Fin SV.rank)) (h1 : SV.BroadcastsInDim SC (![0] : Fin 1 → Fin SC.rank)) (gd : GatherDims SV SC SV)
    (hcoll : gd.collapsedSliceDims = [0]) (hob : gd.operandBatchingDims = []) (hsim : gd.startIndexMap = [0]) (hivd : gd.indexVectorDim = 1)
    (cmp : BitVec 32 × BitVec 32 → BitVec 32 × BitVec 32 → BitVec 1) (k : SV.Idx → BitVec 32) (t : Fin 32) :
    Host.gather gd k (broadcastInDim SC ![0] h1
        (select (cmpi .slt (Host.sort2 SV 0 cmp k (iotaInDim SV 32 0)).2 (broadcastInDim SV ![] h0 (constantI S0 32 0#32)))
                (addi (Host.sort2 SV 0 cmp k (iotaInDim SV 32 0)).2 (broadcastInDim SV ![] h0 (constantI S0 32 32#32)))
                (Host.sort2 SV 0 cmp k (iotaInDim SV 32 0)).2)) (at32 t)
      = k (at32 (place cmp k t)) := by
  refine take_at gd hcoll hob hsim hivd k _ t (place cmp k t) ?_
  refine (bcast_col1 h1 _ t).trans ?_
  refine (wrap_apply h0 32#32 _ (at32 t) ?_).trans (argsort_apply cmp k t)
  -- the word of a position is below 32, far below 2^31
  rw [argsort_apply, BitVec.toNat_ofNat]
  have := (place cmp k t).isLt
  omega

/-- The subject numbers clipped into 0..7, as the kernel's host code spells it: min(7, max(0, s)). -/
def clip7 (h0 : S0.BroadcastsInDim SV (![] : Fin 0 → Fin SV.rank)) (s : SV.Idx → BitVec 32) : SV.Idx → BitVec 32 :=
  minsi (broadcastInDim SV ![] h0 (id (constantI S0 32 7#32))) (maxsi (broadcastInDim SV ![] h0 (id (constantI S0 32 0#32))) s)

/-- One word's clip. With m = max(0, v) in the signed order, m is not negative, and min(7, m) is 7 when m exceeds 7
    and m otherwise: either way a natural number at most 7. If v is already one of 0..7 both steps return v. -/
private theorem clip_word (v : BitVec 32) :
    (IntOp.minsi 7#32 (IntOp.maxsi 0#32 v)).toNat ≤ 7 ∧ (v.toNat < 8 → IntOp.minsi 7#32 (IntOp.maxsi 0#32 v) = v) := by
  have hv : v.toInt = if 2 * v.toNat < 2 ^ 32 then (v.toNat : Int) else (v.toNat : Int) - 2 ^ 32 := BitVec.toInt_eq_toNat_cond v
  have hlt : v.toNat < 2 ^ 32 := v.isLt
  have h0 : (0#32 : BitVec 32).toInt = 0 := by decide
  have h7 : (7#32 : BitVec 32).toInt = 7 := by decide
  have h7n : (7#32 : BitVec 32).toNat = 7 := by decide
  have h0n : (0#32 : BitVec 32).toNat = 0 := by decide
  unfold IntOp.minsi IntOp.maxsi
  by_cases hneg : v.slt 0#32
  · -- v negative: max(0, v) = 0 and min(7, 0) = 0
    rw [if_pos hneg]
    have h70 : ¬ (7#32 : BitVec 32).slt 0#32 := by decide
    rw [if_neg h70]
    refine ⟨by rw [h0n]; omega, fun h8 => ?_⟩
    simp only [BitVec.slt, h0, decide_eq_true_eq] at hneg
    split at hv <;> omega
  · rw [if_neg hneg]
    simp only [BitVec.slt, h0, decide_eq_true_eq, not_lt] at hneg
    by_cases hbig : (7#32 : BitVec 32).slt v
    · rw [if_pos hbig]
      refine ⟨by rw [h7n], fun h8 => ?_⟩
      simp only [BitVec.slt, h7, decide_eq_true_eq] at hbig
      split at hv <;> omega
    · rw [if_neg hbig]
      simp only [BitVec.slt, h7, decide_eq_true_eq, not_lt] at hbig
      refine ⟨?_, fun _ => rfl⟩
      split at hv <;> omega

theorem clip7_le (h0 : S0.BroadcastsInDim SV (![] : Fin 0 → Fin SV.rank)) (s : SV.Idx → BitVec 32) (j : SV.Idx) : (clip7 h0 s j).toNat ≤ 7 :=
  (clip_word (s j)).1

theorem clip7_of_lt (h0 : S0.BroadcastsInDim SV (![] : Fin 0 → Fin SV.rank)) (s : SV.Idx → BitVec 32) (j : SV.Idx) (h : (s j).toNat < 8) : clip7 h0 s j = s j :=
  (clip_word (s j)).2 h

end Cert.SubjectMix.Routing

end
-- ==== Proof.TablesBits.lean ====
/-
  The two tables of row numbers the kernel's launch reads, as functions of the subject numbers.

  Before the launch the host code clips the 32 subject numbers into 0..7 (the keys), sorts the positions 0..31 stably by
  key, and gathers the keys in that order. The launch is handed the sorted positions (table 0) and the sorted keys
  (table 1). Writing σ for the sorting permutation of the keys, place t of table 0 holds the word of σ t and place t of
  table 1 holds the key of row σ t. Grid point t reads both tables at place t, so it works on input row σ t, weight
  matrix key(σ t) and output row σ t. Since σ t is below 32 and a key is below 8, every block the launch asks for lies
  inside its array: the launch's side condition holds for every launch memory, whatever the subject numbers are.
-/
import proofs.«405532_j22454089023725_3_alg».proof.Proof.Gen.Kernel.Frame
import proofs.«405532_j22454089023725_3_alg».proof.Proof.Spec
import proofs.«405532_j22454089023725_3_alg».proof.Proof.Routing
import Idealize.ShloMosaic.Lib.StableHlo.Run

set_option maxRecDepth 16384

noncomputable section

namespace Cert.SubjectMix.TablesBits

open Cert.Kernel Cert.Kernel.Gen Cert.SubjectMix Cert.SubjectMix.Routing
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ)

/-! ## The tables' contents -/

/-- The subject numbers as the launch memory holds them (the program runs on one device). -/
def subjects : SV.Idx → BitVec 32 := m (((0 : Dev nD) : Thread nD τ).loc main_arg1)

/-- The keys: the subject numbers clipped into 0..7. -/
def keys : SV.Idx → BitVec 32 := clip7 Facts₀.bcast_S_S32 (subjects m)

/-- The sorting permutation: the row that the stable sort of the keys puts at place t. -/
def sigma : Fin 32 → Fin 32 := place comparator_i32_i32_d0 (keys m)

theorem sigma_bijective : Function.Bijective (sigma m) := place_bijective _ _

set_option maxHeartbeats 1000000 in
/-- Table 0 is the argsort of the keys. -/
theorem table0_eq : tbl m 0 = (Host.sort2 S32 0 comparator_i32_i32_d0 (keys m) (iotaInDim S32 32 0)).2 := by
  unfold tbl
  show V m 0 main_v1 = _
  unfold V
  simp only [hostOps0, hostOps0_1, hostOps0_2, hostOps0_3, List.flatten_cons, List.flatten_nil, List.append_nil, List.cons_append, List.nil_append]
  after_results
  simp only [TRef.ofBuf, TRef.toBuf, cast_eq]
  rfl

set_option maxHeartbeats 1000000 in
/-- Table 1 is the keys gathered through the argsort (its negative entries, of which there are none, wrapped by 32). -/
theorem table1_eq : tbl m 1 = Host.gather gather_S32_S32x1_S32_n_0_n_n_0_1_1 (keys m)
    (broadcastInDim S32x1 ![0] Facts₀.bcast_S32_S32x1_0
      (select (cmpi .slt (Host.sort2 S32 0 comparator_i32_i32_d0 (keys m) (iotaInDim S32 32 0)).2 (broadcastInDim S32 ![] Facts₀.bcast_S_S32 (constantI S_ 32 0#32)))
              (addi (Host.sort2 S32 0 comparator_i32_i32_d0 (keys m) (iotaInDim S32 32 0)).2 (broadcastInDim S32 ![] Facts₀.bcast_S_S32 (constantI S_ 32 32#32)))
              (Host.sort2 S32 0 comparator_i32_i32_d0 (keys m) (iotaInDim S32 32 0)).2)) := by
  unfold tbl
  show V m 0 main_v8 = _
  unfold V
  simp only [hostOps0, hostOps0_1, hostOps0_2, hostOps0_3, List.flatten_cons, List.flatten_nil, List.append_nil, List.cons_append, List.nil_append]
  after_results
  simp only [TRef.ofBuf, TRef.toBuf, cast_eq]
  rfl

/-- Place t of table 0 holds the word of row σ t. -/
theorem table0_word (t : Fin 32) : tbl m 0 (at32 t) = BitVec.ofNat 32 (sigma m t).val := by
  rw [table0_eq]; exact argsort_apply _ _ t

theorem table0_toNat (t : Fin 32) : (tbl m 0 (at32 t)).toNat = (sigma m t).val := by
  rw [table0_word, BitVec.toNat_ofNat]
  have := (sigma m t).isLt
  omega

/-- Place t of table 1 holds the key of row σ t. -/
theorem table1_word (t : Fin 32) : tbl m 1 (at32 t) = keys m (at32 (sigma m t)) := by
  rw [table1_eq]
  exact sorted_keys_apply Facts₀.bcast_S_S32 Facts₀.bcast_S32_S32x1_0 gather_S32_S32x1_S32_n_0_n_n_0_1_1 rfl rfl rfl rfl _ _ t

theorem keys_le (j : SV.Idx) : (keys m j).toNat ≤ 7 := clip7_le _ _ j

theorem keys_of_lt (j : SV.Idx) (h : (subjects m j).toNat < 8) : keys m j = subjects m j := clip7_of_lt _ _ j h

/-! ## The launch's side condition -/

/-- Grid point t as a number below 32. -/
def pt (t : Fin grid0.N) : Fin 32 := ⟨t.val, lt_of_lt_of_eq t.isLt N_0⟩

/-- The place of a table that the index maps read at grid coordinates i. -/
def tix (i : grid0.Coords) : S32.Idx :=
  (Rect.unit (s := S32) (k0_off1 i) S1.size (k0_off1_inb i)).emb (Shape.Idx.first (numel1_S1.symm ▸ Nat.one_pos))

set_option maxHeartbeats 400000 in
/-- At grid point t that place is t: decided over the 32 points. -/
theorem tix_val : ∀ t : Fin grid0.N, (tix (grid0.coords t) 0).val = t.val := by decide +kernel

theorem tix_eq (t : Fin grid0.N) : tix (grid0.coords t) = at32 (pt t) := by
  funext d
  apply Fin.ext
  have hd : d = 0 := Subsingleton.elim _ _
  subst hd
  exact tix_val t

theorem map0_eq (pf : pre0.Contents (Elt F)) (i : grid0.Coords) :
    cc0_transform_0 k0_off1_inb numel1_S1 pf i = ![(pf 0 (tix i)).toNat, 0, 0] := rfl
theorem map1_eq (pf : pre0.Contents (Elt F)) (i : grid0.Coords) :
    cc0_transform_1 k0_off1_inb numel1_S1 pf i = ![(pf 1 (tix i)).toNat, 0, 0] := rfl
theorem map2_eq (pf : pre0.Contents (Elt F)) (i : grid0.Coords) :
    cc0_transform_2 k0_off1_inb numel1_S1 pf i = ![(pf 0 (tix i)).toNat, 0, 0] := rfl

/-- Every word of table 0 is below 32 and every word of table 1 below 8. -/
theorem table0_lt (x : S32.Idx) : (tbl m 0 x).toNat < 32 := by
  rw [Shape.Idx.eq_ofFin x]
  exact (table0_toNat m (x 0)).trans_lt (sigma m (x 0)).isLt
theorem table1_lt (x : S32.Idx) : (tbl m 1 x).toNat < 8 := by
  rw [Shape.Idx.eq_ofFin x]
  have h := table1_word m (x 0)
  have := keys_le m (at32 (sigma m (x 0)))
  show (tbl m 1 (at32 (x 0))).toNat < 8
  rw [h]; omega

/-- Every block the launch asks for lies inside its array, for every launch memory. -/
theorem ok : Ok m := by
  refine ⟨fun i => ⟨fun d => ?_, Or.inl rfl⟩, fun i => ⟨fun d => ?_, Or.inl rfl⟩, fun i => ⟨fun d => ?_, Or.inl rfl⟩⟩
  · rw [map0_eq]
    have h := table0_lt m (tix i)
    generalize (tbl m 0 (tix i)).toNat = n at h
    fin_cases d
    · show (n + 1) * 1 ≤ 32; omega
    · show (0 + 1) * 4096 ≤ 4096; omega
    · show (0 + 1) * 256 ≤ 256; omega
  · rw [map1_eq]
    have h := table1_lt m (tix i)
    generalize (tbl m 1 (tix i)).toNat = n at h
    fin_cases d
    · show (n + 1) * 1 ≤ 8; omega
    · show (0 + 1) * 4096 ≤ 4096; omega
    · show (0 + 1) * 1024 ≤ 1024; omega
  · rw [map2_eq]
    have h := table0_lt m (tix i)
    generalize (tbl m 0 (tix i)).toNat = n at h
    fin_cases d
    · show (n + 1) * 1 ≤ 32; omega
    · show (0 + 1) * 1024 ≤ 1024; omega
    · show (0 + 1) * 256 ≤ 256; omega

end Cert.SubjectMix.TablesBits

end
-- ==== Proof.TablesIdeal.lean ====
/-
  The two tables of row numbers the kernel's launch reads, as functions of the subject numbers.

  Before the launch the host code clips the 32 subject numbers into 0..7 (the keys), sorts the positions 0..31 stably by
  key, and gathers the keys in that order. The launch is handed the sorted positions (table 0) and the sorted keys
  (table 1). Writing σ for the sorting permutation of the keys, place t of table 0 holds the word of σ t and place t of
  table 1 holds the key of row σ t. Grid point t reads both tables at place t, so it works on input row σ t, weight
  matrix key(σ t) and output row σ t. Since σ t is below 32 and a key is below 8, every block the launch asks for lies
  inside its array: the launch's side condition holds for every launch memory, whatever the subject numbers are.
-/
import proofs.«405532_j22454089023725_3_alg».proof.Proof.Gen.KernelIdeal.Frame
import proofs.«405532_j22454089023725_3_alg».proof.Proof.Spec
import proofs.«405532_j22454089023725_3_alg».proof.Proof.Routing
import Idealize.ShloMosaic.Lib.StableHlo.Run

set_option maxRecDepth 16384

noncomputable section

namespace Cert.SubjectMix.TablesIdeal

open Cert.KernelIdeal Cert.KernelIdeal.Gen Cert.SubjectMix Cert.SubjectMix.Routing
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ)

/-! ## The tables' contents -/

/-- The subject numbers as the launch memory holds them (the program runs on one device). -/
def subjects : SV.Idx → BitVec 32 := m (((0 : Dev nD) : Thread nD τ).loc main_arg1)

/-- The keys: the subject numbers clipped into 0..7. -/
def keys : SV.Idx → BitVec 32 := clip7 Facts₀.bcast_S_S32 (subjects m)

/-- The sorting permutation: the row that the stable sort of the keys puts at place t. -/
def sigma : Fin 32 → Fin 32 := place comparator_i32_i32_d0 (keys m)

theorem sigma_bijective : Function.Bijective (sigma m) := place_bijective _ _

set_option maxHeartbeats 1000000 in
/-- Table 0 is the argsort of the keys. -/
theorem table0_eq : tbl m 0 = (Host.sort2 S32 0 comparator_i32_i32_d0 (keys m) (iotaInDim S32 32 0)).2 := by
  unfold tbl
  show V m 0 main_v1 = _
  unfold V
  simp only [hostOps0, hostOps0_1, hostOps0_2, hostOps0_3, List.flatten_cons, List.flatten_nil, List.append_nil, List.cons_append, List.nil_append]
  after_results
  simp only [TRef.ofBuf, TRef.toBuf, cast_eq]
  rfl

set_option maxHeartbeats 1000000 in
/-- Table 1 is the keys gathered through the argsort (its negative entries, of which there are none, wrapped by 32). -/
theorem table1_eq : tbl m 1 = Host.gather gather_S32_S32x1_S32_n_0_n_n_0_1_1 (keys m)
    (broadcastInDim S32x1 ![0] Facts₀.bcast_S32_S32x1_0
      (select (cmpi .slt (Host.sort2 S32 0 comparator_i32_i32_d0 (keys m) (iotaInDim S32 32 0)).2 (broadcastInDim S32 ![] Facts₀.bcast_S_S32 (constantI S_ 32 0#32)))
              (addi (Host.sort2 S32 0 comparator_i32_i32_d0 (keys m) (iotaInDim S32 32 0)).2 (broadcastInDim S32 ![] Facts₀.bcast_S_S32 (constantI S_ 32 32#32)))
              (Host.sort2 S32 0 comparator_i32_i32_d0 (keys m) (iotaInDim S32 32 0)).2)) := by
  unfold tbl
  show V m 0 main_v8 = _
  unfold V
  simp only [hostOps0, hostOps0_1, hostOps0_2, hostOps0_3, List.flatten_cons, List.flatten_nil, List.append_nil, List.cons_append, List.nil_append]
  after_results
  simp only [TRef.ofBuf, TRef.toBuf, cast_eq]
  rfl

/-- Place t of table 0 holds the word of row σ t. -/
theorem table0_word (t : Fin 32) : tbl m 0 (at32 t) = BitVec.ofNat 32 (sigma m t).val := by
  rw [table0_eq]; exact argsort_apply _ _ t

theorem table0_toNat (t : Fin 32) : (tbl m 0 (at32 t)).toNat = (sigma m t).val := by
  rw [table0_word, BitVec.toNat_ofNat]
  have := (sigma m t).isLt
  omega

/-- Place t of table 1 holds the key of row σ t. -/
theorem table1_word (t : Fin 32) : tbl m 1 (at32 t) = keys m (at32 (sigma m t)) := by
  rw [table1_eq]
  exact sorted_keys_apply Facts₀.bcast_S_S32 Facts₀.bcast_S32_S32x1_0 gather_S32_S32x1_S32_n_0_n_n_0_1_1 rfl rfl rfl rfl _ _ t

theorem keys_le (j : SV.Idx) : (keys m j).toNat ≤ 7 := clip7_le _ _ j

theorem keys_of_lt (j : SV.Idx) (h : (subjects m j).toNat < 8) : keys m j = subjects m j := clip7_of_lt _ _ j h

/-! ## The launch's side condition -/

/-- Grid point t as a number below 32. -/
def pt (t : Fin grid0.N) : Fin 32 := ⟨t.val, lt_of_lt_of_eq t.isLt N_0⟩

/-- The place of a table that the index maps read at grid coordinates i. -/
def tix (i : grid0.Coords) : S32.Idx :=
  (Rect.unit (s := S32) (k0_off1 i) S1.size (k0_off1_inb i)).emb (Shape.Idx.first (numel1_S1.symm ▸ Nat.one_pos))

set_option maxHeartbeats 400000 in
/-- At grid point t that place is t: decided over the 32 points. -/
theorem tix_val : ∀ t : Fin grid0.N, (tix (grid0.coords t) 0).val = t.val := by decide +kernel

theorem tix_eq (t : Fin grid0.N) : tix (grid0.coords t) = at32 (pt t) := by
  funext d
  apply Fin.ext
  have hd : d = 0 := Subsingleton.elim _ _
  subst hd
  exact tix_val t

theorem map0_eq (pf : pre0.Contents (Elt F)) (i : grid0.Coords) :
    cc0_transform_0 k0_off1_inb numel1_S1 pf i = ![(pf 0 (tix i)).toNat, 0, 0] := rfl
theorem map1_eq (pf : pre0.Contents (Elt F)) (i : grid0.Coords) :
    cc0_transform_1 k0_off1_inb numel1_S1 pf i = ![(pf 1 (tix i)).toNat, 0, 0] := rfl
theorem map2_eq (pf : pre0.Contents (Elt F)) (i : grid0.Coords) :
    cc0_transform_2 k0_off1_inb numel1_S1 pf i = ![(pf 0 (tix i)).toNat, 0, 0] := rfl

/-- Every word of table 0 is below 32 and every word of table 1 below 8. -/
theorem table0_lt (x : S32.Idx) : (tbl m 0 x).toNat < 32 := by
  rw [Shape.Idx.eq_ofFin x]
  exact (table0_toNat m (x 0)).trans_lt (sigma m (x 0)).isLt
theorem table1_lt (x : S32.Idx) : (tbl m 1 x).toNat < 8 := by
  rw [Shape.Idx.eq_ofFin x]
  have h := table1_word m (x 0)
  have := keys_le m (at32 (sigma m (x 0)))
  show (tbl m 1 (at32 (x 0))).toNat < 8
  rw [h]; omega

/-- Every block the launch asks for lies inside its array, for every launch memory. -/
theorem ok : Ok m := by
  refine ⟨fun i => ⟨fun d => ?_, Or.inl rfl⟩, fun i => ⟨fun d => ?_, Or.inl rfl⟩, fun i => ⟨fun d => ?_, Or.inl rfl⟩⟩
  · rw [map0_eq]
    have h := table0_lt m (tix i)
    generalize (tbl m 0 (tix i)).toNat = n at h
    fin_cases d
    · show (n + 1) * 1 ≤ 32; omega
    · show (0 + 1) * 4096 ≤ 4096; omega
    · show (0 + 1) * 256 ≤ 256; omega
  · rw [map1_eq]
    have h := table1_lt m (tix i)
    generalize (tbl m 1 (tix i)).toNat = n at h
    fin_cases d
    · show (n + 1) * 1 ≤ 8; omega
    · show (0 + 1) * 4096 ≤ 4096; omega
    · show (0 + 1) * 1024 ≤ 1024; omega
  · rw [map2_eq]
    have h := table0_lt m (tix i)
    generalize (tbl m 0 (tix i)).toNat = n at h
    fin_cases d
    · show (n + 1) * 1 ≤ 32; omega
    · show (0 + 1) * 1024 ≤ 1024; omega
    · show (0 + 1) * 256 ≤ 256; omega

end Cert.SubjectMix.TablesIdeal

end
-- ==== Proof.Payload.lean ====
/-
  One block of the subject-mixing product, read at a single entry.

  At a grid point the kernel body holds an input block x0 of shape [1, 4096, 256] and a weight block x1 of shape
  [1, 4096, 1024]. It forgets the leading axis of length one of each, narrows both to sixteen-bit floats (which
  changes nothing on the extended reals), and forms the product that contracts the 4096-long channel axis — axis 0 of
  BOTH factors, the weights standing on the left — starting from an accumulator that is zero everywhere; the leading
  unit axis is then put back. The value so obtained is the generated definition `k0_pay1`.

  This file computes that value entrywise: for d < 1024 and t < 256,
      k0_pay1 x0 x1 (0, d, t) = Σ_c x1[0, c, d] · x0[0, c, t],      c over the 4096 channels,
  each summand with the weight as the left factor, exactly as the product is taken. No algebraic law is used: the
  argument only follows indices. The product at (d, t) is a sum over the abstract contraction index of the
  dimension record; that index has a single coordinate, so the sum is re-indexed over Fin 4096, and it remains to say
  which entry of each factor the record reads. On the contracted axis 0 it reads the contraction position; on the
  kept axis 1 it reads the result's coordinate — the first one (d) for the weights, the second (t) for the inputs.
-/
import proofs.«405532_j22454089023725_3_alg».proof.Proof.Spec
import proofs.«405532_j22454089023725_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.SubjectMix.Block

open Cert.KernelIdeal Cert.KernelIdeal.Gen Cert.SubjectMix Idealize.ShloMosaic Idealize.ShloMosaic.ValueIdx

/-! ## Which entries the product reads

The dimension record contracts axis 0 of the weights [4096, 1024] with axis 0 of the inputs [4096, 256] and keeps
axis 1 of each, the weights' kept axis first in the result [1024, 256]. The four facts below read the two operand
indices off the record, one axis at a time. -/

/-- Weights, channel axis: the left index carries the contraction position. -/
theorem lhs_pay_0 (i : S1024x256.Idx) (q : dot_S4096x1024_S4096x256_S1024x256_0_0_1_1_n_n.contr.Idx) :
    (dot_S4096x1024_S4096x256_S1024x256_0_0_1_1_n_n.lhsIdx i q 0).val = (q ⟨0, by decide⟩).val :=
  dot_S4096x1024_S4096x256_S1024x256_0_0_1_1_n_n.lhsIdx_val_of_single rfl i q

/-- Weights, output-feature axis: the left index carries the result's first coordinate. -/
theorem lhs_pay_1 (i : S1024x256.Idx) (q : dot_S4096x1024_S4096x256_S1024x256_0_0_1_1_n_n.contr.Idx) :
    (dot_S4096x1024_S4096x256_S1024x256_0_0_1_1_n_n.lhsIdx i q 1).val = (i 0).val := by
  unfold DotDims.lhsIdx
  rw [dif_neg (show ¬(1 : Fin S4096x1024.rank) ∈ dot_S4096x1024_S4096x256_S1024x256_0_0_1_1_n_n.lhsBatch by decide), dif_pos (show (1 : Fin S4096x1024.rank) ∈ dot_S4096x1024_S4096x256_S1024x256_0_0_1_1_n_n.lhsNonContracting by decide)]
  rfl

/-- Inputs, channel axis: the right index carries the contraction position. -/
theorem rhs_pay_0 (i : S1024x256.Idx) (q : dot_S4096x1024_S4096x256_S1024x256_0_0_1_1_n_n.contr.Idx) :
    (dot_S4096x1024_S4096x256_S1024x256_0_0_1_1_n_n.rhsIdx i q 0).val = (q ⟨0, by decide⟩).val :=
  dot_S4096x1024_S4096x256_S1024x256_0_0_1_1_n_n.rhsIdx_val_of_single rfl i q

/-- Inputs, time axis: the right index carries the result's second coordinate (the weights' kept axis comes first). -/
theorem rhs_pay_1 (i : S1024x256.Idx) (q : dot_S4096x1024_S4096x256_S1024x256_0_0_1_1_n_n.contr.Idx) :
    (dot_S4096x1024_S4096x256_S1024x256_0_0_1_1_n_n.rhsIdx i q 1).val = (i 1).val := by
  unfold DotDims.rhsIdx
  rw [dif_neg (show ¬(1 : Fin S4096x256.rank) ∈ dot_S4096x1024_S4096x256_S1024x256_0_0_1_1_n_n.rhsBatch by decide), dif_pos (show (1 : Fin S4096x256.rank) ∈ dot_S4096x1024_S4096x256_S1024x256_0_0_1_1_n_n.rhsNonContracting by decide)]
  rfl

/-! ## The block's value at an entry -/

/-- Entry (0, d, t) of the block the kernel body stores is Σ_c x1[0, c, d] · x0[0, c, t]: the restored unit axis reads
    the product at (d, t); into the zero accumulator the product is the bare sum over the contraction index, which is
    one coordinate c < 4096; at c the record reads the weights at (c, d) and the inputs at (c, t); the narrowing is the
    identity; and a block without its unit axis, read at (c, ·), is the block at (0, c, ·). -/
theorem pay_apply (x0 : Vec Ideal Cert.KernelIdeal.S1x4096x256 .f32) (x1 : Vec Ideal Cert.KernelIdeal.S1x4096x1024 .f32) (d : Fin 1024) (t : Fin 256) :
    Cert.KernelIdeal.Gen.k0_pay1 (F := Ideal) x0 x1 (ix3 (0 : Fin 1) d t) = ∑ c : Fin 4096, x1 (ix3 (0 : Fin 1) c d) * x0 (ix3 (0 : Fin 1) c t) := by
  unfold k0_pay1
  -- the unit axis put back: (0, d, t) reads the product at (d, t)
  refine (shapeCast_ab_1ab_apply _ _ (0 : Fin 1) d t).trans ?_
  -- the product into zero is the sum over the contraction index
  refine (Ideal.matmul_constant_zero_apply dot_S4096x1024_S4096x256_S1024x256_0_0_1_1_n_n none _ _ (ix2 d t)).trans ?_
  -- that index is its one coordinate
  rw [← Equiv.sum_comp (contrEquiv1 dot_S4096x1024_S4096x256_S1024x256_0_0_1_1_n_n 4096 rfl rfl).symm]
  refine Finset.sum_congr rfl fun c _ => ?_
  have hk := contrEquiv1_symm_val dot_S4096x1024_S4096x256_S1024x256_0_0_1_1_n_n 4096 rfl rfl c
  -- the weights are read at (c, d)
  have el : dot_S4096x1024_S4096x256_S1024x256_0_0_1_1_n_n.lhsIdx (ix2 d t) ((contrEquiv1 dot_S4096x1024_S4096x256_S1024x256_0_0_1_1_n_n 4096 rfl rfl).symm c) = ix2 c d := funext fun a => Fin.ext (by
    match a with
    | ⟨0, _⟩ => exact (lhs_pay_0 _ _).trans hk
    | ⟨1, _⟩ => exact lhs_pay_1 _ _)
  -- the inputs are read at (c, t)
  have er : dot_S4096x1024_S4096x256_S1024x256_0_0_1_1_n_n.rhsIdx (ix2 d t) ((contrEquiv1 dot_S4096x1024_S4096x256_S1024x256_0_0_1_1_n_n 4096 rfl rfl).symm c) = ix2 c t := funext fun a => Fin.ext (by
    match a with
    | ⟨0, _⟩ => exact (rhs_pay_0 _ _).trans hk
    | ⟨1, _⟩ => exact rhs_pay_1 _ _)
  rw [el, er]
  -- the narrowing is the identity, and each block without its unit axis reads the block at (0, c, ·)
  refine congrArg₂ (· * ·) ?_ ?_
  · exact shapeCast_1ab_ab_apply x1 _ c d
  · exact shapeCast_1ab_ab_apply x0 _ c t

end Cert.SubjectMix.Block

end
-- ==== Proof.FinalArray.lean ====
/-
  The result array after the launch, as one function of the argument arrays.

  The launch runs 32 grid points. Point t reads place t of two tables of words: table 0 names the input row and the
  output row of the point, table 1 the weight matrix. Suppose table 0 at place t holds the word of σ t for a bijection σ
  of the 32 rows, and table 1 the word of κ (σ t) for some assignment κ of a weight matrix to every row. Then
   * the input block of point t is row σ t of x, its weight block is matrix κ (σ t) of w, and its output block is row σ t
     of the result (the other two coordinates of a block are those of the array: the blocks span the last two axes);
   * consecutive points write different rows (σ is injective), so every point writes its block back;
   * every row of the result is the row of exactly one point (σ is onto), so the blocks cover the result;
   * what point t writes at (d, u) is Σ_c w[κ (σ t), c, d] · x[σ t, c, u], which is the entry (σ t, d, u) of the function
     of Spec.lean. Hence the result array ends holding that function.
  Everything here is proved for table contents that are a variable; the launch memory's own tables are put in last.
-/
import proofs.«405532_j22454089023725_3_alg».proof.Proof.Gen.KernelIdeal.Frame
import proofs.«405532_j22454089023725_3_alg».proof.Proof.Spec
import proofs.«405532_j22454089023725_3_alg».proof.Proof.Payload
import proofs.«405532_j22454089023725_3_alg».proof.Proof.TablesIdeal
import Idealize.ShloMosaic.Lib.Pipeline.Value

set_option maxRecDepth 16384

noncomputable section

open scoped BigOperators

namespace Cert.SubjectMix.FinalArray
open Cert.SubjectMix.TablesIdeal (pt tix tix_eq)
open Cert.KernelIdeal Cert.KernelIdeal.Gen Cert.SubjectMix
open Idealize.ShloMosaic Idealize.ShloMosaic.TcCoe Idealize.SL.Sem Idealize.ShloMosaic.ValueIdx
open Idealize.ShloMosaic.Pipeline (Dat)

section AnyF
variable {F : FTy → Type} [FloatOps F]
variable (a : (pcfg0 (F := F)).Adm)

set_option maxHeartbeats 50000 in
theorem index0 (t : Fin (cfg0 a).N) : ((cfg0 a).win 0).index t = ![(a.1 0 (at32 (pt t))).toNat, 0, 0] := by
  rw [← tix_eq t]; rfl
set_option maxHeartbeats 50000 in
theorem index1 (t : Fin (cfg0 a).N) : ((cfg0 a).win 1).index t = ![(a.1 1 (at32 (pt t))).toNat, 0, 0] := by
  rw [← tix_eq t]; rfl
set_option maxHeartbeats 50000 in
theorem index2 (t : Fin (cfg0 a).N) : ((cfg0 a).win 2).index t = ![(a.1 0 (at32 (pt t))).toNat, 0, 0] := by
  rw [← tix_eq t]; rfl

/-! ## Where a block sits in its array -/

variable (σ : Fin 32 → Fin 32) (κ : Fin 32 → Fin 8)
variable (h0 : ∀ t : Fin 32, (a.1 0 (at32 t)).toNat = (σ t).val) (h1 : ∀ t : Fin 32, (a.1 1 (at32 t)).toNat = (κ (σ t)).val)

set_option maxHeartbeats 100000 in
include h0 in
theorem emb0 (t : Fin (cfg0 a).N) (y : S1x4096x256.Idx) :
    ((((cfg0 a).win 0).blk t).view.emb y : S32x4096x256.Idx) = ix3 (σ (pt t)) (⟨(y 1).val, (y 1).isLt⟩ : Fin 4096) (⟨(y 2).val, (y 2).isLt⟩ : Fin 256) := by
  have e := index0 a t
  have hy0 : (y 0).val < 1 := (y 0).isLt
  funext d; apply Fin.ext
  match d with
  | ⟨0, _⟩ =>
    show ((cfg0 a).win 0).index t (0 : Fin 3) * 1 + 1 * (y 0).val = (σ (pt t)).val
    rw [e, ← h0]; show (a.1 0 (at32 (pt t))).toNat * 1 + 1 * (y 0).val = _; omega
  | ⟨1, _⟩ =>
    show ((cfg0 a).win 0).index t (1 : Fin 3) * 4096 + 1 * (y 1).val = (y 1).val
    rw [e]; show 0 * 4096 + 1 * (y 1).val = _; omega
  | ⟨2, _⟩ =>
    show ((cfg0 a).win 0).index t (2 : Fin 3) * 256 + 1 * (y 2).val = (y 2).val
    rw [e]; show 0 * 256 + 1 * (y 2).val = _; omega

set_option maxHeartbeats 100000 in
include h1 in
theorem emb1 (t : Fin (cfg0 a).N) (y : S1x4096x1024.Idx) :
    ((((cfg0 a).win 1).blk t).view.emb y : S8x4096x1024.Idx) = ix3 (κ (σ (pt t))) (⟨(y 1).val, (y 1).isLt⟩ : Fin 4096) (⟨(y 2).val, (y 2).isLt⟩ : Fin 1024) := by
  have e := index1 a t
  have hy0 : (y 0).val < 1 := (y 0).isLt
  funext d; apply Fin.ext
  match d with
  | ⟨0, _⟩ =>
    show ((cfg0 a).win 1).index t (0 : Fin 3) * 1 + 1 * (y 0).val = (κ (σ (pt t))).val
    rw [e, ← h1]; show (a.1 1 (at32 (pt t))).toNat * 1 + 1 * (y 0).val = _; omega
  | ⟨1, _⟩ =>
    show ((cfg0 a).win 1).index t (1 : Fin 3) * 4096 + 1 * (y 1).val = (y 1).val
    rw [e]; show 0 * 4096 + 1 * (y 1).val = _; omega
  | ⟨2, _⟩ =>
    show ((cfg0 a).win 1).index t (2 : Fin 3) * 1024 + 1 * (y 2).val = (y 2).val
    rw [e]; show 0 * 1024 + 1 * (y 2).val = _; omega

set_option maxHeartbeats 100000 in
include h0 in
theorem emb2 (t : Fin (cfg0 a).N) (y : S1x1024x256.Idx) :
    ((((cfg0 a).win 2).blk t).view.emb y : S32x1024x256.Idx) = ix3 (σ (pt t)) (⟨(y 1).val, (y 1).isLt⟩ : Fin 1024) (⟨(y 2).val, (y 2).isLt⟩ : Fin 256) := by
  have e := index2 a t
  have hy0 : (y 0).val < 1 := (y 0).isLt
  funext d; apply Fin.ext
  match d with
  | ⟨0, _⟩ =>
    show ((cfg0 a).win 2).index t (0 : Fin 3) * 1 + 1 * (y 0).val = (σ (pt t)).val
    rw [e, ← h0]; show (a.1 0 (at32 (pt t))).toNat * 1 + 1 * (y 0).val = _; omega
  | ⟨1, _⟩ =>
    show ((cfg0 a).win 2).index t (1 : Fin 3) * 1024 + 1 * (y 1).val = (y 1).val
    rw [e]; show 0 * 1024 + 1 * (y 1).val = _; omega
  | ⟨2, _⟩ =>
    show ((cfg0 a).win 2).index t (2 : Fin 3) * 256 + 1 * (y 2).val = (y 2).val
    rw [e]; show 0 * 256 + 1 * (y 2).val = _; omega

set_option maxHeartbeats 100000 in
include h0 in
/-- Consecutive points write different rows, so every point writes its block back. -/
theorem flush2 (hσ : Function.Injective σ) (t : Fin (cfg0 a).N) : ((cfg0 a).win 2).flush t = true := by
  unfold Pipeline.Window.flush
  rw [Bool.and_eq_true]
  refine ⟨rfl, ?_⟩
  rw [Bool.or_eq_true]
  have hN : (cfg0 a).grid.N = 32 := N_0
  have ht : t.val < 32 := lt_of_lt_of_eq t.isLt N_0
  by_cases hl : t.val + 1 = 32
  · exact Or.inl (decide_eq_true (hl.trans hN.symm))
  · have hlt : t.val + 1 < (cfg0 a).grid.N := by rw [hN]; omega
    refine Or.inr (decide_eq_true ⟨hlt, fun e => ?_⟩)
    have e0 := congrFun e (0 : Fin 3)
    rw [index2, index2] at e0
    have e1 : (a.1 0 (at32 (pt ⟨t.val + 1, hlt⟩))).toNat = (a.1 0 (at32 (pt t))).toNat := e0
    rw [h0, h0] at e1
    have e2 : (pt ⟨t.val + 1, hlt⟩).val = (pt t).val := congrArg Fin.val (hσ (Fin.ext e1))
    have e3 : t.val + 1 = t.val := e2
    omega

end AnyF

section Cover
variable {F : FTy → Type} [FloatOps F]
variable (a : (pcfg0 (F := F)).Adm)
variable (σ : Fin 32 → Fin 32)
variable (h0 : ∀ t : Fin 32, (a.1 0 (at32 t)).toNat = (σ t).val)

set_option maxHeartbeats 200000 in
include h0 in
/-- Every row of the result is some point's block, and that point writes it back. -/
theorem covered (hσ : Function.Bijective σ) (i : S32x1024x256.Idx) :
    ∃ t : Fin (cfg0 a).N, ((cfg0 a).win 2).flush t = true ∧ i ∈ (((cfg0 a).win 2).blk t).view.set := by
  obtain ⟨s, hs⟩ := hσ.surjective ⟨(i 0).val, (i 0).isLt⟩
  let t : Fin (cfg0 a).N := ⟨s.val, lt_of_lt_of_eq s.isLt N_0.symm⟩
  have hpt : pt t = s := Fin.ext rfl
  refine ⟨t, flush2 a σ h0 hσ.injective t, ?_⟩
  have hy : (((cfg0 a).win 2).blk t).view.emb (ix3 (0 : Fin 1) (⟨(i 1).val, (i 1).isLt⟩ : Fin 1024) (⟨(i 2).val, (i 2).isLt⟩ : Fin 256) : S1x1024x256.Idx) = i := by
    rw [emb2 a σ h0 t, hpt, hs]
    funext d
    match d with
    | ⟨0, _⟩ => rfl
    | ⟨1, _⟩ => rfl
    | ⟨2, _⟩ => rfl
  rw [← hy]
  exact View.emb_mem_set _ _

end Cover

section AtIdeal
variable (a : (pcfg0 (F := Ideal)).Adm)
variable (σ : Fin 32 → Fin 32) (κ : Fin 32 → Fin 8)
variable (h0 : ∀ t : Fin 32, (a.1 0 (at32 t)).toNat = (σ t).val) (h1 : ∀ t : Fin 32, (a.1 1 (at32 t)).toNat = (κ (σ t)).val)
variable (X : S32x4096x256.Idx → EReal) (W : S8x4096x1024.Idx → EReal)

/-- The input block and the weight block point t reads. -/
abbrev xblk (t : Fin (cfg0 a).N) : Vec Ideal S1x4096x256 .f32 := (((cfg0 a).win 0).blk t).view.read (Elt Ideal) X
abbrev wblk (t : Fin (cfg0 a).N) : Vec Ideal S1x4096x1024 .f32 := (((cfg0 a).win 1).blk t).view.read (Elt Ideal) W

set_option maxHeartbeats 400000 in
include h0 h1 in
theorem written_at (t : Fin (cfg0 a).N) (y : S1x1024x256.Idx) :
    k0_pay1 (F := Ideal) (xblk a X t) (wblk a W t) y = mix κ X W ((((cfg0 a).win 2).blk t).view.emb y) := by
  obtain ⟨z, d, u, rfl⟩ : ∃ (z : Fin 1) (d : Fin 1024) (u : Fin 256), y = ix3 z d u := ⟨y 0, y 1, y 2, eq_ix3 y⟩
  obtain rfl : z = 0 := Subsingleton.elim _ _
  rw [emb2 a σ h0 t]
  refine (Block.pay_apply _ _ d u).trans ?_
  rw [mix_apply]
  refine Finset.sum_congr rfl fun k _ => ?_
  show W ((((cfg0 a).win 1).blk t).view.emb (ix3 0 k d)) * X ((((cfg0 a).win 0).blk t).view.emb (ix3 0 k u)) = _
  rw [emb0 a σ h0 t, emb1 a σ κ h1 t]

set_option maxHeartbeats 400000 in
include h0 h1 in
/-- THE RESULT ARRAY after the run. -/
theorem final_of {c : Dev nD} (dat : Dat τ (Elt Ideal) Unit ℕ (UR sig nD τ) ℕ (cfg0 a) c) (hσ : Function.Bijective σ)
    (hafter : ∀ t, dat.after 2 t = k0_pay1 (F := Ideal) (xblk a X t) (wblk a W t)) :
    dat.arrAt 2 (cfg0 a).N = mix κ X W :=
  dat.arrAt_eq_of_cover 2 (mix κ X W) (fun t _ => by
      show ((cfg0 a).win 2).cut ((cfg0 a).grid.coords t) (dat.after 2 t) = _
      rw [hafter]
      funext y
      exact written_at a σ κ h0 h1 X W t y) (covered a σ h0 hσ)

set_option maxHeartbeats 400000 in
/-- The same, with the tables' contents named apart from the launch's record of them: the facts about the tables are
    stated of `pf`, and `hpf` says the launch runs at those contents. -/
theorem final_of_tables (a : (pcfg0 (F := Ideal)).Adm) (pf : pre0.Contents (Elt Ideal)) (hpf : a.1 = pf)
    (σ : Fin 32 → Fin 32) (κ : Fin 32 → Fin 8)
    (h0 : ∀ t : Fin 32, (pf 0 (at32 t)).toNat = (σ t).val) (h1 : ∀ t : Fin 32, (pf 1 (at32 t)).toNat = (κ (σ t)).val)
    (X : S32x4096x256.Idx → EReal) (W : S8x4096x1024.Idx → EReal)
    {c : Dev nD} (dat : Dat τ (Elt Ideal) Unit ℕ (UR sig nD τ) ℕ (cfg0 a) c) (hσ : Function.Bijective σ)
    (hafter : ∀ t, dat.after 2 t = k0_pay1 (F := Ideal) (xblk a X t) (wblk a W t)) :
    dat.arrAt 2 (cfg0 a).N = mix κ X W := by
  subst hpf
  exact final_of a σ κ h0 h1 X W dat hσ hafter

end AtIdeal

end Cert.SubjectMix.FinalArray

end
-- ==== Proof.StoredBlock.lean ====
/-
  What the kernel body leaves in the output block at one grid point. The body loads the whole input block and the whole
  weight block, computes one value from them (the product of the transposed weight matrix with the input matrix, as a
  block of shape [1, 1024, 256]) and stores it over the whole output block in a single store. So the block it leaves is
  that value of the two blocks it was handed, whatever the output block held before and whatever the two tables of row
  numbers hold: the body reads the tables only for a check that stores nothing.
-/
import proofs.«405532_j22454089023725_3_alg».proof.Proof.Gen.KernelIdeal.Frame
import Idealize.ShloMosaic.Lib.Pipeline.Value

set_option maxRecDepth 16384

noncomputable section

namespace Cert.SubjectMix.Stored

open Cert.KernelIdeal Cert.KernelIdeal.Gen
open Idealize.ShloMosaic Idealize.ShloMosaic.TcCoe Idealize.ShloMosaic.Tactic Idealize.SL.Sem

variable {F : FTy → Type} [FloatOps F]

/-- The three zero offsets of a whole-block access are the zero function. -/
theorem zero3 : (![0, 0, 0] : Fin 3 → Nat) = fun _ => 0 := by
  funext a; fin_cases a <;> rfl

/-- The stored block is the body's one value of the input block `x0` and the weight block `x1`. -/
theorem stored_eq (c : Dev nD) (i : grid0.Coords) (arg3 : Memref sig .tc .vmem S1x4096x256 .f32) (harg3 : arg3.IsWhole)
    (arg4 : Memref sig .tc .vmem S1x4096x1024 .f32) (harg4 : arg4.IsWhole) (arg5 : Memref sig .tc .vmem S1x1024x256 .f32) (harg5 : arg5.IsWhole)
    (x0 : Vec F S1x4096x256 .f32) (x1 : Vec F S1x4096x1024 .f32) (xt0 : TbBuf0 (F := F) c tbM0_0) (xt1 : TbBuf0 (F := F) c tbM0_1) :
    out0_A_2 c i arg3 harg3 arg4 harg4 arg5 harg5 x0 x1 xt0 xt1 = k0_pay1 x0 x1 := by
  unfold out0_A_2
  rw [View.read_writes_eq_canon _ _ _ (cover0_A_2 c i arg3 harg3 arg4 harg4 arg5 harg5 x0 x1 xt0 xt1)]
  unfold kernelRun0_A
  dsimp only
  sl_unfold_words
  rw [View.canon_unit_zero zero3]
  simp only [View.readAt_eq_ld, harg3.read_unread, harg4.read_unread, View.ld_unit_zero (S := S1x4096x256) zero3,
    View.ld_unit_zero (S := S1x4096x1024) zero3]

end Cert.SubjectMix.Stored

end
-- ==== Proof.KernelValue.lean ====
/-
  The kernel's run with its result named. The generated frame run leaves the result array at what the launch's write-backs
  make of the per-point output blocks; each block is the body's one value of the point's input and weight blocks
  (StoredBlock.lean); the launch memory's tables are the sorted positions and the sorted keys (TablesIdeal.lean); so the
  result array is the function of Spec.lean at the keys (FinalArray.lean). Where every subject number is already in 0..7
  a key is its subject number.
-/
import proofs.«405532_j22454089023725_3_alg».proof.Proof.TablesIdeal
import proofs.«405532_j22454089023725_3_alg».proof.Proof.FinalArray
import proofs.«405532_j22454089023725_3_alg».proof.Proof.StoredBlock

set_option maxRecDepth 16384

noncomputable section

namespace Cert.SubjectMix.KernelValue

open Cert.KernelIdeal Cert.KernelIdeal.Gen Cert.SubjectMix Cert.SubjectMix.TablesIdeal
open Idealize.ShloMosaic Idealize.ShloMosaic.TcCoe Idealize.SL.Sem Idealize.ShloMosaic.ValueIdx

variable (m : (ℓ : Loc nD τ sig) → Buf (Elt Ideal) ℓ) (ρ : Dev nD → PrngReg)

/-- The key of each row as a number below 8. -/
def keyOf : Fin 32 → Fin 8 := fun b => ⟨(keys m (at32 b)).toNat, Nat.lt_succ_of_le (keys_le m _)⟩

/-- Where the subject numbers are below 8 the keys are the subject numbers. -/
theorem keyOf_eq (hs : ∀ b : Fin 32, (subjects m (at32 b)).toNat < 8) : keyOf m = subjectOf (subjects m) hs :=
  funext fun b => Fin.ext (by
    show (keys m (at32 b)).toNat = (subjects m (at32 b)).toNat
    rw [keys_of_lt m _ (hs b)])

set_option maxHeartbeats 400000 in
/-- What the body leaves in the output block at point t: its value of the blocks the point reads. -/
theorem after2 (c : Dev nD) (t : Fin (cfgM m (ok m)).N) :
    (dats m (ok m) 0 c).after 2 t
      = k0_pay1 (F := Ideal) (FinalArray.xblk (adm m (ok m)) (V m c main_arg0) t) (FinalArray.wblk (adm m (ok m)) (V m c main_arg2) t) := by
  rw [after0_2]
  unfold outsAt0
  exact Stored.stored_eq (F := Ideal) c (grid0.coords t) (ms0_0 m (ok m) t) (hs0_0 m (ok m) t) (ms0_1 m (ok m) t) (hs0_1 m (ok m) t)
    (ms0_2 m (ok m) t) (hs0_2 m (ok m) t) (iblk m (ok m) c 0 t) (iblk m (ok m) c 1 t) (tbl m 0) (tbl m 1)

set_option maxHeartbeats 100000 in
/-- The result array after the run. -/
theorem final (c : Dev nD) :
    (dats m (ok m) 0 c).arrAt 2 (cfgM m (ok m)).N = mix (keyOf m) (V m c main_arg0) (V m c main_arg2) := by
  have h0 : ∀ t : Fin 32, (tbl m 0 (at32 t)).toNat = (sigma m t).val := fun t => table0_toNat m t
  have h1 : ∀ t : Fin 32, (tbl m 1 (at32 t)).toNat = (keyOf m (sigma m t)).val := fun t => by
    show (tbl m 1 (at32 t)).toNat = (keys m (at32 (sigma m t))).toNat
    rw [table1_word]
  have hb := sigma_bijective m
  have ha := after2 m c
  exact FinalArray.final_of_tables (adm m (ok m)) (tbl m) rfl (sigma m) (keyOf m) h0 h1 (V m c main_arg0) (V m c main_arg2) (dats m (ok m) 0 c) hb ha

set_option maxHeartbeats 400000 in
/-- The kernel's run: it ends with the result at the function of Spec.lean of the arguments, which it leaves unchanged. -/
theorem run (hs : ∀ b : Fin 32, (subjects m (at32 b)).toNat < 8) :
    θ_run defs (onTc (τ := τ) (main (F := Ideal))) ⟨m, fun _ => 0, ρ⟩ (fun r => ∀ c : Dev nD,
      r.2.mem ((c.tc : Thread nD τ).loc main_v9)
          = mix (subjectOf (subjects m) hs) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).1 2).trans ((final m c).trans (by rw [V_main_arg0, V_main_arg2, keyOf_eq m hs])),
       ((h c).1 0).trans (((dats m (ok m) 0 c).arrAt_in 0 rfl _).trans ((A_eq m (ok m) c 0).trans (V_main_arg0 m c))),
       ((h c).2 main_arg1 (by decide : main_arg1 ∈ Pipeline.restRefs sig spec0)).trans (V_main_arg1 m c),
       ((h c).1 1).trans (((dats m (ok m) 0 c).arrAt_in 1 rfl _).trans ((A_eq m (ok m) c 1).trans (V_main_arg2 m c)))⟩)
    (run_main m ρ (ok m))

end Cert.SubjectMix.KernelValue

end
-- ==== Proof.RefValue.lean ====
/-
  The value of the reference program, in closed form.

  The reference selects, for every batch row b, the weight matrix of that row's subject, and multiplies its transpose
  with the row's input:  out[b, d, t] = Σ_c w[s b, c, d] · x[b, c, t].  Two index corrections stand between the subject
  word s b and the row of w that is read. First a negative index is moved up by the number of subjects, 8 (the
  array-indexing convention: -1 is the last entry). Then the start of the one-matrix slice is read as a signed number and
  forced into 0..7, so that the slice lies inside w. On a word whose value is already below 8 neither does anything: such
  a word is not negative as a signed number, so it is not moved, and its value is at most 7, so forcing it into 0..7
  leaves it alone. Hence the row read is the subject itself, and the reference's result is the function `mix` of the
  specification at the subject numbers.

  The selection is a gather whose result has three axes. Which entry of w the result's entry (b, c, d) reads is
  computed axis by axis from the gather's dimension numbers: on axis 0 (the collapsed axis, the only one a start index
  addresses) it is the start index of batch row b, clamped; on axes 1 and 2 (the offset axes, a full window each) it is
  the result's own coordinate c, resp. d. One lemma per axis, then the three together.
-/
import proofs.«405532_j22454089023725_3_alg».proof.Proof.Spec
import proofs.«405532_j22454089023725_3_alg».proof.Proof.Gen.ReferenceIdeal.Read
import Idealize.ShloMosaic.Lib.StableHlo.Predicate

noncomputable section

open scoped BigOperators

namespace Cert.SubjectMix.Reference

open Cert.ReferenceIdeal Cert.ReferenceIdeal.Gen Cert.ReferenceIdeal.Read Cert.SubjectMix Idealize.ShloMosaic
  Idealize.ShloMosaic.ValueIdx

/-! ## The gather, axis by axis -/

/-- Axis 0 of the weights is the collapsed axis and the one the start index addresses: the entry read there is the start
    index of the result's batch row, read signed and clamped into 0..7. No offset and no batching coordinate is added. -/
theorem gather_main_v6_0 (j : S32x4096x1024.Idx) (idx : IVec S32x1 32) :
    (gather_S8x4096x1024_S32x1_S32x4096x1024_12_0_n_n_0_1_140961024.operandIdx j idx 0).val
      = min (idx (ix2 (⟨(j 0).val, (j 0).isLt⟩ : Fin 32) (0 : Fin 1))).toInt.toNat 7 := by
  have hb : (0 : Fin S8x4096x1024.rank) ∉ gather_S8x4096x1024_S32x1_S32x4096x1024_12_0_n_n_0_1_140961024.operandBatchingDims := by
    decide
  have hk : (0 : Fin S8x4096x1024.rank) ∉ gather_S8x4096x1024_S32x1_S32x4096x1024_12_0_n_n_0_1_140961024.sKept := by
    decide
  have hm : (0 : Fin S8x4096x1024.rank) ∈ gather_S8x4096x1024_S32x1_S32x4096x1024_12_0_n_n_0_1_140961024.startIndexMap := by
    decide
  simp only [GatherDims.operandIdx, GatherDims.batchCoord_eq_zero _ _ _ hb, GatherDims.offCoord_eq_zero _ _ _ hk,
    Nat.add_zero, GatherDims.start, dif_pos hm]
  show min (idx _).toInt.toNat 7 = min (idx _).toInt.toNat 7
  congr 3
  congr 1
  funext a
  match a with
  | ⟨0, _⟩ =>
    -- the start indices' axis 0 is read at the result's batch coordinate, which is the result's axis 0
    unfold GatherDims.siIdx
    rw [dif_neg (by show ¬ (0 : Nat) = 1; exact Nat.zero_ne_one)]
    unfold GatherDims.siCoord
    apply Fin.ext
    simp only [Fin.val_cast]
    exact congrArg (fun a => (j a).val) (by rfl)
  | ⟨1, _⟩ =>
    -- the start indices' axis 1 holds the index vector, of one component
    unfold GatherDims.siIdx
    rw [dif_pos (by show (1 : Nat) = 1; rfl)]
    apply Fin.ext
    show List.idxOf (0 : Fin S8x4096x1024.rank) gather_S8x4096x1024_S32x1_S32x4096x1024_12_0_n_n_0_1_140961024.startIndexMap = 0
    decide

/-- Axis 1 of the weights is the first offset axis: no start index addresses it and its window is the whole axis, so the
    entry read there is the result's own coordinate on axis 1. -/
theorem gather_main_v6_1 (j : S32x4096x1024.Idx) (idx : IVec S32x1 32) :
    (gather_S8x4096x1024_S32x1_S32x4096x1024_12_0_n_n_0_1_140961024.operandIdx j idx 1).val = (j 1).val := by
  have hb : (1 : Fin S8x4096x1024.rank) ∉ gather_S8x4096x1024_S32x1_S32x4096x1024_12_0_n_n_0_1_140961024.operandBatchingDims := by
    decide
  have hk : (1 : Fin S8x4096x1024.rank) ∈ gather_S8x4096x1024_S32x1_S32x4096x1024_12_0_n_n_0_1_140961024.sKept := by
    decide
  have hm : (1 : Fin S8x4096x1024.rank) ∉ gather_S8x4096x1024_S32x1_S32x4096x1024_12_0_n_n_0_1_140961024.startIndexMap := by
    decide
  simp only [GatherDims.operandIdx, GatherDims.batchCoord_eq_zero _ _ _ hb, Nat.add_zero, Nat.zero_add, GatherDims.start,
    dif_neg hm, GatherDims.offCoord, dif_pos hk]
  exact congrArg (fun a => (j a).val) (by rfl)

/-- Axis 2 of the weights is the second offset axis: likewise the entry read there is the result's coordinate on axis 2. -/
theorem gather_main_v6_2 (j : S32x4096x1024.Idx) (idx : IVec S32x1 32) :
    (gather_S8x4096x1024_S32x1_S32x4096x1024_12_0_n_n_0_1_140961024.operandIdx j idx 2).val = (j 2).val := by
  have hb : (2 : Fin S8x4096x1024.rank) ∉ gather_S8x4096x1024_S32x1_S32x4096x1024_12_0_n_n_0_1_140961024.operandBatchingDims := by
    decide
  have hk : (2 : Fin S8x4096x1024.rank) ∈ gather_S8x4096x1024_S32x1_S32x4096x1024_12_0_n_n_0_1_140961024.sKept := by
    decide
  have hm : (2 : Fin S8x4096x1024.rank) ∉ gather_S8x4096x1024_S32x1_S32x4096x1024_12_0_n_n_0_1_140961024.startIndexMap := by
    decide
  simp only [GatherDims.operandIdx, GatherDims.batchCoord_eq_zero _ _ _ hb, Nat.add_zero, Nat.zero_add, GatherDims.start,
    dif_neg hm, GatherDims.offCoord, dif_pos hk]
  exact congrArg (fun a => (j a).val) (by rfl)

/-! ## The start index of a row whose subject is below 8 -/

/-- Moving a negative index up by 8 does nothing to a word whose value is below 8: read as a signed number it is its
    value, which is not below zero, so the unmoved word is selected. -/
theorem wrap_of_lt (s y : BitVec 32) (h : s.toNat < 8) :
    Scalar.select (IntOp.cmpi .slt s 0#32) y s = s := by
  have hn : ¬ IntOp.cmpi .slt s 0#32 = 1#1 := by
    rw [StableHlo.Predicate.slt_iff_toNat (by omega) (by decide)]
    exact Nat.not_lt_zero _
  rw [eq_zero_of_ne_one hn, select_zero]

/-- Clamping into 0..7 does nothing to a word whose value is below 8: its signed reading is its value, at most 7. -/
theorem clamp_of_lt (s : BitVec 32) (h : s.toNat < 8) : min s.toInt.toNat 7 = s.toNat := by
  rw [StableHlo.Predicate.toInt_eq_toNat_of_lt (by omega), Int.toNat_natCast]
  omega

/-- The start index the gather reads for batch row b — the row's subject word after the move of negative indices,
    laid out as a column — is the subject word itself when that is below 8. -/
theorem start_index_of_lt (x1 : (⟨S32, .i32⟩ : BufTy).Contents (Elt Ideal)) (b : Fin 32) (h : (x1 (at32 b)).toNat < 8) :
    val_main_v5 (F := Ideal) x1 (ix2 b (0 : Fin 1)) = x1 (at32 b) := by
  have e5 : idx_main_v5 (ix2 b (0 : Fin 1)) = at32 b := by
    funext a
    match a with
    | ⟨0, _⟩ => rfl
  rw [val_main_v5_apply, e5, val_main_v4_apply, val_main_v1_apply, val_main_v0_apply, val_main_c_apply]
  exact wrap_of_lt _ _ h

/-! ## The gather at an entry, and the reference's value -/

/-- The gathered weights at (b, c, d) are the weights of row b's subject at (c, d). -/
theorem val_main_v6_apply (x1 : (⟨S32, .i32⟩ : BufTy).Contents (Elt Ideal)) (x2 : (⟨S8x4096x1024, .f32⟩ : BufTy).Contents (Elt Ideal))
    (hs : ∀ b : Fin 32, (x1 (at32 b)).toNat < 8) (b : Fin 32) (c : Fin 4096) (d : Fin 1024) :
    val_main_v6 (F := Ideal) x1 x2 (ix3 b c d) = x2 (ix3 (subjectOf x1 hs b) c d) := by
  unfold val_main_v6 Host.gather
  refine congrArg x2 ?_
  funext a
  apply Fin.ext
  match a with
  | ⟨0, _⟩ =>
    refine (gather_main_v6_0 _ _).trans ?_
    show min (val_main_v5 (F := Ideal) x1 (ix2 b (0 : Fin 1))).toInt.toNat 7 = (x1 (at32 b)).toNat
    rw [start_index_of_lt x1 b (hs b)]
    exact clamp_of_lt _ (hs b)
  | ⟨1, _⟩ => exact gather_main_v6_1 _ _
  | ⟨2, _⟩ => exact gather_main_v6_2 _ _

/-- The reference's result is the subject mix of the specification at the subject numbers: each entry is the sum over
    the channels of the gathered weight times the input, and the gathered weight is the subject's. -/
theorem reference_eq (x0 : (⟨Cert.ReferenceIdeal.S32x4096x256, .f32⟩ : BufTy).Contents (Elt Ideal)) (x1 : (⟨Cert.ReferenceIdeal.S32, .i32⟩ : BufTy).Contents (Elt Ideal))
    (x2 : (⟨Cert.ReferenceIdeal.S8x4096x1024, .f32⟩ : BufTy).Contents (Elt Ideal)) (hs : ∀ b : Fin 32, (x1 (at32 b)).toNat < 8) :
    Cert.ReferenceIdeal.Read.val_main_v7 (F := Ideal) x0 x1 x2 = mix (subjectOf x1 hs) x0 x2 := by
  funext i
  obtain ⟨b, d, t, rfl⟩ : ∃ (b : Fin 32) (d : Fin 1024) (t : Fin 256), i = ix3 b d t := ⟨i 0, i 1, i 2, eq_ix3 i⟩
  rw [val_main_v7_apply, mix_apply]
  refine Finset.sum_congr rfl fun k _ => ?_
  have el : lidx_main_v7 (ix3 b d t) k = ix3 b k d := by
    funext a
    match a with
    | ⟨0, _⟩ => rfl
    | ⟨1, _⟩ => rfl
    | ⟨2, _⟩ => rfl
  have er : ridx_main_v7 (ix3 b d t) k = ix3 b k t := by
    funext a
    match a with
    | ⟨0, _⟩ => rfl
    | ⟨1, _⟩ => rfl
    | ⟨2, _⟩ => rfl
  rw [el, er, val_main_v6_apply x1 x2 hs]

end Cert.SubjectMix.Reference

end
-- ==== Proof.PreRange.lean ====
/-
  The range of the subject numbers, read out of the precondition.

  The precondition is one bit: the conjunction of three "for all elements" tests. The third of them asks, for every
  one of the 32 subject words s, that 0 ≤ s and s < 8 when s is read as a signed 32-bit integer. A conjunction of
  bits is 1 only if each bit is 1, and an and-fold over a vector started at 1 is 1 only if every entry is 1; so from
  "the precondition is 1" we get, at each row b, the two signed comparisons of the word s b. A word that is signed
  nonnegative has its top bit clear, so its signed and unsigned readings agree, and the signed bound s < 8 becomes the
  unsigned bound s.toNat < 8. The two finiteness tests on the real-valued inputs are not needed for this and are left
  untouched.
-/
import proofs.«405532_j22454089023725_3_alg».proof.Pre_finite_inputs
import proofs.«405532_j22454089023725_3_alg».proof.Proof.Spec
import Idealize.ShloMosaic.Lib.ReduceAll
import Idealize.ShloMosaic.Lib.StableHlo.Predicate
import Idealize.ShloMosaic.Lib.ValueIdx

noncomputable section

namespace Cert.SubjectMix.Domain

open Idealize.ShloMosaic Cert.SubjectMix Cert.Pre_finite_inputs

/-- A 32-bit word that is at least 0 and less than 8 as a signed integer is less than 8 as a natural number:
    the first comparison rules out the negative half, where the two readings differ by 2^32. -/
theorem toNat_lt_eight_of_signed (w : BitVec 32) (h0 : IntOp.cmpi .sge w 0#32 = 1#1)
    (h8 : IntOp.cmpi .slt w 8#32 = 1#1) : w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hw := w.isLt
  unfold BitVec.toInt at h0 h8
  split at h0 <;> split at h8 <;> omega

/-- The rank-0 shape has exactly one index: a function out of the empty set of axes. -/
instance : Subsingleton S_.Idx := ⟨fun _ _ => funext fun d => d.elim0⟩

/-- If the precondition evaluates to 1, every subject word, read unsigned, is below 8. -/
theorem subjects_lt {F : FTy → Type} [FloatOps F] [Cert.Pre_finite_inputs.Facts]
    (a0 : FVec F Cert.Pre_finite_inputs.S32x4096x256 .f32) (a1 : IVec Cert.Pre_finite_inputs.S32 32) (a2 : FVec F Cert.Pre_finite_inputs.S8x4096x1024 .f32)
    (h : Cert.Pre_finite_inputs.fn (F := F) a0 a1 a2 = fun _ => 1#1) : ∀ b : Fin 32, (a1 (at32 b)).toNat < 8 := by
  intro b
  have e := congrFun h ValueIdx.ix0
  dsimp only [Cert.Pre_finite_inputs.fn] at e
  -- the outer conjunction: keep its second bit, the fold over the 32 range tests
  have eFold := (IntOp.andi_eq_one.1 e).2
  -- a fold by "and" that ends at 1 saw a 1 at every position, in particular at row b
  have eRow := Host.reduce_andi_all _ _ _ _ _ eFold (at32 b)
  -- at row b the test is the conjunction of the two signed comparisons
  obtain ⟨hge, hlt⟩ := IntOp.andi_eq_one.1 eRow
  exact toNat_lt_eight_of_signed (a1 (at32 b)) hge hlt

end Cert.SubjectMix.Domain

end
-- ==== Proof.lean ====
/-
  The kernel against its reference: for each of 32 batch rows b, with subject number s[b], the product of the
  transposed weight matrix of subject s[b] with the row's input,  out[b, d, t] = Σ_c w[s[b], c, d] · x[b, c, t].

  The reference gathers w[s] (a negative index wrapped by 8, the start clamped into 0..7) and contracts. The kernel
  clips s into 0..7, sorts the rows by clipped subject so that equal subjects are adjacent, and runs one grid point per
  sorted row: the point's input block, weight block and output block are named by two tables of row numbers the launch
  reads (the sorted positions and the subjects in sorted order), and its body is one matrix product of the two blocks.
  Sorting permutes the rows, so every output row is written exactly once, by the point that sorted to it, with that
  row's own input and its own subject's weights; rounding the operands to sixteen-bit floats is the identity on the
  extended reals. The two programs therefore compute the same sum, summand by summand, PROVIDED the clip and the
  reference's wrap-and-clamp name the same weight matrix — which they do for a subject number in 0..7, and do not for a
  negative one (−1 is matrix 7 to the reference and matrix 0 to the kernel). The precondition says every subject number
  is in 0..7, beside the finiteness of the float inputs, which no step of this proof uses.

  The frames: the launch's side condition (every block it asks for lies inside its array) holds for every launch memory,
  since a sorted position is below 32 and a clipped subject below 8 (Proof/TablesBits.lean, Proof/TablesIdeal.lean); the
  reference's frame is its generated run with the result dropped. The kernel's value: Proof/StoredBlock.lean (the block a
  point stores), Proof/Payload.lean (that block at an index), Proof/Routing.lean (the sort and the two tables),
  Proof/FinalArray.lean (the blocks cover the result), Proof/KernelValue.lean (the run). The reference's value:
  Proof/RefValue.lean. The subject numbers' range out of the precondition: Proof/PreRange.lean.
-/
import proofs.«405532_j22454089023725_3_alg».proof.Defs
import proofs.«405532_j22454089023725_3_alg».proof.Proof.Gen.Kernel
import proofs.«405532_j22454089023725_3_alg».proof.Proof.Gen.Kernel.Skeleton
import proofs.«405532_j22454089023725_3_alg».proof.Proof.Gen.Kernel.Launch
import proofs.«405532_j22454089023725_3_alg».proof.Proof.Gen.Kernel.Points
import proofs.«405532_j22454089023725_3_alg».proof.Proof.Gen.Kernel.Frame
import proofs.«405532_j22454089023725_3_alg».proof.Proof.Gen.KernelIdeal
import proofs.«405532_j22454089023725_3_alg».proof.Proof.Gen.KernelIdeal.Skeleton
import proofs.«405532_j22454089023725_3_alg».proof.Proof.Gen.KernelIdeal.Launch
import proofs.«405532_j22454089023725_3_alg».proof.Proof.Gen.KernelIdeal.Points
import proofs.«405532_j22454089023725_3_alg».proof.Proof.Gen.KernelIdeal.Frame
import proofs.«405532_j22454089023725_3_alg».proof.Proof.Gen.ReferenceIdeal
import proofs.«405532_j22454089023725_3_alg».proof.Proof.Gen.Pre_finite_inputs
import proofs.«405532_j22454089023725_3_alg».proof.Proof.Gen.ReferenceIdeal.Run
import proofs.«405532_j22454089023725_3_alg».proof.Proof.Gen.ReferenceIdeal.Read
import proofs.«405532_j22454089023725_3_alg».proof.Proof.TablesBits
import proofs.«405532_j22454089023725_3_alg».proof.Proof.TablesIdeal
import proofs.«405532_j22454089023725_3_alg».proof.Proof.KernelValue
import proofs.«405532_j22454089023725_3_alg».proof.Proof.RefValue
import proofs.«405532_j22454089023725_3_alg».proof.Proof.PreRange
import Idealize.ShloMosaic.Adequacy
import Idealize.ShloMosaic.Init

noncomputable section

namespace Cert.Proof

open Idealize.ShloMosaic Idealize.ShloMosaic.TcCoe Idealize.SL.Sem Cert.SubjectMix

/-- The word-level kernel runs and leaves its arguments unchanged: the launch's side condition holds of every memory. -/
theorem frame_kernel : Cert.frame_Kernel := fun m ρ _ => Cert.Kernel.Gen.frame m ρ (Cert.SubjectMix.TablesBits.ok m)

/-- So does the kernel read over the extended reals. -/
theorem frame_kernelIdeal : Cert.frame_KernelIdeal := fun m ρ _ => Cert.KernelIdeal.Gen.frame m ρ (Cert.SubjectMix.TablesIdeal.ok m)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, with every subject number in 0..7, both programs end with the result at
    out[b, d, t] = Σ_c w[s[b], c, d] · x[b, c, t] of the kernel's arguments. -/
theorem algebraic : Cert.algebraic_KernelIdeal_ReferenceIdeal := by
  intro m ρ m' ρ' hpre hagree
  have hs : ∀ b : Fin 32, (Cert.SubjectMix.TablesIdeal.subjects m (at32 b)).toNat < 8 :=
    Cert.SubjectMix.Domain.subjects_lt _ _ _ (hpre 0)
  refine ⟨fun c => mix (subjectOf (Cert.SubjectMix.TablesIdeal.subjects m) hs)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.SubjectMix.KernelValue.run m ρ hs, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v7_eq, (hagree 0).1, (hagree 0).2.1, (hagree 0).2.2]
  exact Cert.SubjectMix.Reference.reference_eq _ _ _ hs

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
